-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S64x1024x256 .f32) (main_arg1 : FVec F S64x1024x256 .f32) (main_arg2 : FVec F S256x256 .f32) (main_arg3 : FVec F S256x256 .f32) (main_arg4 : IVec S64x1024x1024 32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S64x1024x256 : Shape := ⟨3, ![64, 1024, 256]⟩
abbrev S256x256 : Shape := ⟨2, ![256, 256]⟩
abbrev S64x1024x1024 : Shape := ⟨3, ![64, 1024, 1024]⟩
abbrev S1x256x256 : Shape := ⟨3, ![1, 256, 256]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S256x256, .f32⟩
  | .hbm, ⟨4, _⟩ => ⟨S64x1024x1024, .i32⟩
  | .hbm, ⟨5, _⟩ => ⟨S64x1024x1024, .f32⟩
  | .local _ .vmem, ⟨0, _⟩ => ⟨S1x256x256, .f32⟩
  | .local _ .vmem, ⟨1, _⟩ => ⟨S1x256x256, .f32⟩
  | .local _ .vmem, ⟨2, _⟩ => ⟨S1x1024x256, .f32⟩
  | .local _ .vmem, ⟨3, _⟩ => ⟨S1x1024x256, .f32⟩
  | .local _ .vmem, ⟨4, _⟩ => ⟨S256x256, .f32⟩
  | .local _ .vmem, ⟨5, _⟩ => ⟨S256x256, .f32⟩
  | .local _ .vmem, ⟨6, _⟩ => ⟨S1x256x1024, .i32⟩
  | .local _ .vmem, ⟨7, _⟩ => ⟨S1x256x1024, .i32⟩
  | .local _ .vmem, ⟨8, _⟩ => ⟨S1x256x1024, .f32⟩
  | .local _ .vmem, ⟨9, _⟩ => ⟨S1x256x1024, .f32⟩
  | .local _ .vmem, ⟨10, _⟩ => ⟨S1024x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  dot_S1024x256_S256x256_S1024x256_1_0_0_1_n_n_wf : DotDims.WF S1024x256 S256x256 S1024x256 [1] [0] [0] [1] [] []
  dot_S256x256_S256x256_S256x256_1_0_0_1_n_n_wf : DotDims.WF S256x256 S256x256 S256x256 [1] [0] [0] [1] [] []
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S64x1024x256.size a
  hwx0_0 : ∀ i : grid0.Coords, EltTy.bits .f32 = 32 ∨ (Rect.block (s := S64x1024x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S64x1024x256.size a
  hwx0_1 : ∀ i : grid0.Coords, EltTy.bits .f32 = 32 ∨ (Rect.block (s := S64x1024x256) S1x1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S64x1024x1024.size a
  hwx0_4 : ∀ i : grid0.Coords, EltTy.bits .i32 = 32 ∨ (Rect.block (s := S64x1024x1024) S1x256x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S64x1024x1024.size a
  hwx0_5 : ∀ i : grid0.Coords, EltTy.bits .f32 = 32 ∨ (Rect.block (s := S64x1024x1024) S1x256x1024.size (cc0_transform_5 i) (hinb0_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x1024x256 : Shape := ⟨3, ![64, 1024, 256]⟩
abbrev S256x256 : Shape := ⟨2, ![256, 256]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 37
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S256x256, .f32⟩
  | .hbm, ⟨3, _⟩ => ⟨S256x256, .f32⟩
  | .hbm, ⟨4, _⟩ => ⟨S64x1024x1024, .i32⟩
  | .hbm, ⟨5, _⟩ => ⟨S64x1024x256, .f32⟩
  | .hbm, ⟨6, _⟩ => ⟨S64x1024x256, .f32⟩
  | .hbm, ⟨7, _⟩ => ⟨S64x1024x1024, .f32⟩
  | .hbm, ⟨8, _⟩ => ⟨S_, .f32⟩
  | .hbm, ⟨9, _⟩ => ⟨S64x1024x1024, .f32⟩
  | .hbm, ⟨10, _⟩ => ⟨S64x1024x1024, .f32⟩
  | .hbm, ⟨11, _⟩ => ⟨S64x1024x1024, .f32⟩
  | .hbm, ⟨12, _⟩ => ⟨S_, .f32⟩
  | .hbm, ⟨13, _⟩ => ⟨S64x1024x1024, .f32⟩
  | .hbm, ⟨14, _⟩ => ⟨S64x1024x1024, .f32⟩
  | .hbm, ⟨15, _⟩ => ⟨S_, .i32⟩
  | .hbm, ⟨16, _⟩ => ⟨S64x1024x1024, .i32⟩
  | .hbm, ⟨17, _⟩ => ⟨S64x1024x1024, .i1⟩
  | .hbm, ⟨18, _⟩ => ⟨S_, .f32⟩
  | .hbm, ⟨19, _⟩ => ⟨S_, .f32⟩
  | .hbm, ⟨20, _⟩ => ⟨S64x1024x1024, .f32⟩
  | .hbm, ⟨21, _⟩ => ⟨S64x1024x1024, .f32⟩
  | .hbm, ⟨22, _⟩ => ⟨S_, .f32⟩
  | .hbm, ⟨23, _⟩ => ⟨S64x1024, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024x1, .f32⟩
  | .hbm, ⟨28, _⟩ => ⟨S64x1024x1024, .f32⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S64x1024, .f32⟩
  | .hbm, ⟨33, _⟩ => ⟨S64x1024x1, .f32⟩
  | .hbm, ⟨34, _⟩ => ⟨S64x1024x1, .f32⟩
  | .hbm, ⟨35, _⟩ => ⟨S64x1024x1024, .f32⟩
  | .hbm, ⟨36, _⟩ => ⟨S64x1024x1024, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x256_S256x256_S64x1024x256_2_0_01_1_n_n_wf : DotDims.WF S64x1024x256 S256x256 S64x1024x256 [2] [0] [0, 1] [1] [] []
  dot_S64x1024x256_S64x1024x256_S64x1024x1024_2_2_1_1_0_0_wf : DotDims.WF S64x1024x256 S64x1024x256 S64x1024x1024 [2] [2] [1] [1] [0] [0]

variable [Facts₀]

def dot_S64x1024x256_S256x256_S64x1024x256_2_0_01_1_n_n : DotDims S64x1024x256 S256x256 S64x1024x256 where
  lhsContracting := [2]
  rhsContracting := [0]
  lhsNonContracting := [0, 1]
  rhsNonContracting := [1]
  lhsBatch := []
  rhsBatch := []
  wf := dot_S64x1024x256_S256x256_S64x1024x256_2_0_01_1_n_n_wf
def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.Pieces.lean ====
/-
  What each of the body's two control cases leaves behind, as values of the blocks it loaded.

  At a grid point that opens a batch (the second grid coordinate is 0) the body first stores the projected key
  block into the scratch buffer and then reads it back; at the other three points of the batch it only reads the
  scratch.  In both cases the one store to the output block is the log-softmax payload of the query block, the query
  weights, the projected keys and the mask block; the projected keys are the freshly stored ones in the first case
  and whatever the scratch held in the second.
-/
import proofs.«112135_j8126078124685_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that opens a batch leaves the projected key block in the scratch. -/
theorem scratch_first (c : Dev nD) (i : grid0.Coords) (arg2 : Memref sig .tc .vmem S1x256x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256x1024 .i32) (harg6 : arg6.IsWhole) (arg7 : Memref sig .tc .vmem S1x256x1024 .f32) (harg7 : arg7.IsWhole) (arg8 : Memref sig .tc .vmem S1024x256 .f32) (harg8 : arg8.IsWhole) (hc0 : cond0_0 i) (x0 : Vec F S1x256x256 .f32) (x1 : Vec F S1x1024x256 .f32) (x2 : Vec F S256x256 .f32) (x3 : Vec F S256x256 .f32) (x4 : Vec F S1x256x1024 .i32) :
    sout0_A_0 c i arg2 harg2 arg3 harg3 arg4 harg4 arg5 harg5 arg6 harg6 arg7 harg7 arg8 harg8 hc0 x0 x1 x2 x3 x4 = k0_pay2 x1 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg3.read_unread, harg5.read_unread, View.ld_unit_zero (S := S1x1024x256) hz3,
    View.ld_unit_zero (S := S256x256) hz2]

/-- A point that opens a batch writes the payload of its blocks and of the key block it has just projected. -/
theorem out_first (c : Dev nD) (i : grid0.Coords) (arg2 : Memref sig .tc .vmem S1x256x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256x1024 .i32) (harg6 : arg6.IsWhole) (arg7 : Memref sig .tc .vmem S1x256x1024 .f32) (harg7 : arg7.IsWhole) (arg8 : Memref sig .tc .vmem S1024x256 .f32) (harg8 : arg8.IsWhole) (hc0 : cond0_0 i) (x0 : Vec F S1x256x256 .f32) (x1 : Vec F S1x1024x256 .f32) (x2 : Vec F S256x256 .f32) (x3 : Vec F S256x256 .f32) (x4 : Vec F S1x256x1024 .i32) :
    out0_A_5 c i arg2 harg2 arg3 harg3 arg4 harg4 arg5 harg5 arg6 harg6 arg7 harg7 arg8 harg8 hc0 x0 x1 x2 x3 x4 = k0_pay1 (k0_pay3 x0 x2 (k0_pay2 x1 x3) x4) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread,
    View.ld_unit_zero (S := S1x256x256) hz3, View.ld_unit_zero (S := S1x1024x256) hz3, View.ld_unit_zero (S := S256x256) hz2,
    View.ld_unit_zero (S := S1x256x1024) hz3, View.ld_unit_zero (S := S1024x256) hz2, View.readCov_unit_zero (S := S1024x256) _ hz2]

/-- Any other point writes the payload of its blocks and of the projected keys the scratch holds. -/
theorem out_later (c : Dev nD) (i : grid0.Coords) (arg2 : Memref sig .tc .vmem S1x256x256 .f32) (harg2 : arg2.IsWhole) (arg3 : Memref sig .tc .vmem S1x1024x256 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x256x1024 .i32) (harg6 : arg6.IsWhole) (arg7 : Memref sig .tc .vmem S1x256x1024 .f32) (harg7 : arg7.IsWhole) (arg8 : Memref sig .tc .vmem S1024x256 .f32) (harg8 : arg8.IsWhole) (hc0 : ¬cond0_0 i) (x0 : Vec F S1x256x256 .f32) (x1 : Vec F S1x1024x256 .f32) (x2 : Vec F S256x256 .f32) (x3 : Vec F S256x256 .f32) (x4 : Vec F S1x256x1024 .i32) (xs0 : Vec F S1024x256 .f32) :
    out0_B_5 c i arg2 harg2 arg3 harg3 arg4 harg4 arg5 harg5 arg6 harg6 arg7 harg7 arg8 harg8 hc0 x0 x1 x2 x3 x4 xs0 = k0_pay1 (k0_pay3 x0 x2 xs0 x4) := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz3]
  simp only [View.readAt_eq_ld, harg2.read_unread, harg4.read_unread, harg6.read_unread, harg8.read_unread,
    View.ld_unit_zero (S := S1x256x256) hz3, View.ld_unit_zero (S := S256x256) hz2,
    View.ld_unit_zero (S := S1x256x1024) hz3, View.ld_unit_zero (S := S1024x256) hz2]

end Cert.KernelIdeal.Pieces

end
-- ==== Proof.Spec.lean ====
/-
  The function both programs compute, stated once over the extended reals, index by index.

  For a batch `b`, a query row `r` and a key row `s`: the query row and the key row are each projected by a
  256 × 256 weight matrix (`proj`), the score is the inner product of the two projected rows (`score`), the logit is
  `10 · tanh(score · 2⁻⁴)` unless the mask entry is 1, where it is the constant `-10⁸` (`logitOf`, `logit`), and the
  result is the logarithm of the softmax of the logits along the key axis, taken in the shifted form
  `(x - max) - log (∑ exp (x - max))` (`logSoftmax`).  Nothing here is evaluated: the four float constants stay the
  bit patterns both programs print.
-/
import Idealize.ShloMosaic.PureOps.Ideal
import Idealize.ShloMosaic.Lib.ValueIdx

noncomputable section

namespace Cert.Attn

open Idealize.ShloMosaic Idealize.ShloMosaic.ValueIdx

/-- The shape of the two activations `q`, `k`: batch × rows × features. -/
abbrev SAct : Shape := ⟨3, ![64, 1024, 256]⟩
/-- The shape of the two weight matrices. -/
abbrev SWgt : Shape := ⟨2, ![256, 256]⟩
/-- The shape of the mask and of the result: batch × query rows × key rows. -/
abbrev SOut : Shape := ⟨3, ![64, 1024, 1024]⟩

/-- Row `r` of batch `b` of `x`, times the matrix `w`: entry `e` of the projected row. -/
def proj (x : SAct.Idx → EReal) (w : SWgt.Idx → EReal) (b : Fin 64) (r : Fin 1024) (e : Fin 256) : EReal :=
  ∑ d : Fin 256, x (ix3 b r d) * w (ix2 d e)

/-- The logit of a projected query row `qp` against key row `s` of the projected keys `kp`, under the mask row
    `mrow`: the clipped scaled inner product, or `-10⁸` where the mask is 1. -/
def logitOf (qp : Fin 256 → EReal) (kp : Fin 1024 → Fin 256 → EReal) (mrow : Fin 1024 → BitVec 32) (s : Fin 1024) : EReal :=
  Scalar.select (IntOp.cmpi .eq (mrow s) 1#32) (Ideal.ofBits .f32 0xCCBEBC20#32)
    (Ideal.ofBits .f32 0x41200000#32 * Ideal.tanh ((∑ e : Fin 256, qp e * kp s e) * Ideal.ofBits .f32 0x3D800000#32))

/-- The maximum of a row of 1024 extended reals, folded from the pattern of `-∞`. -/
def rowMax (f : Fin 1024 → EReal) : EReal :=
  (Finset.univ : Finset (Fin 1024)).fold max (Ideal.ofBits .f32 0xFF800000#32) f

/-- The log-softmax of a row at entry `s`, in the shifted form. -/
def logSoftmax (f : Fin 1024 → EReal) (s : Fin 1024) : EReal :=
  (f s - rowMax f) - Ideal.log (∑ s' : Fin 1024, Ideal.exp (f s' - rowMax f))

/-- The row of logits of query row `r` of batch `b`. -/
def logit (q k : SAct.Idx → EReal) (wq wk : SWgt.Idx → EReal) (mask : SOut.Idx → BitVec 32)
    (b : Fin 64) (r : Fin 1024) : Fin 1024 → EReal :=
  logitOf (proj q wq b r) (proj k wk b) (fun s => mask (ix3 b r s))

/-- THE RESULT: entry `(b, r, s)` is the log-softmax, along `s`, of the logits of query row `r` of batch `b`. -/
def G (q k : SAct.Idx → EReal) (wq wk : SWgt.Idx → EReal) (mask : SOut.Idx → BitVec 32) : SOut.Idx → EReal :=
  fun i => logSoftmax (logit q k wq wk mask (i 0) (i 1)) (i 2)

theorem G_apply (q k : SAct.Idx → EReal) (wq wk : SWgt.Idx → EReal) (mask : SOut.Idx → BitVec 32)
    (b : Fin 64) (r s : Fin 1024) :
    G q k wq wk mask (ix3 b r s) = logSoftmax (logit q k wq wk mask b r) s := rfl

end Cert.Attn

end
-- ==== Proof.Payload.lean ====
/-
  The kernel body's three stored values, read at an index over the extended reals.

  The body projects the key block once per batch (`k0_pay2`: the key rows times the key weights), and at every grid
  point projects its 256 query rows, takes their inner products with the 1024 projected key rows, scales by 2⁻⁴,
  clips by `10 · tanh`, replaces masked entries by `-10⁸` and takes the log-softmax along the key axis
  (`k0_pay3`); `k0_pay1` only re-lays the [256, 1024] result as [1, 256, 1024].

  Each of the three matrix products is read at an index as a sum over its one contracted coordinate; each of the two
  lane reductions (the row maximum, the row sum) as a fold or a sum over the key coordinate; the column forms
  [256] → [256, 1] → [256, 1024] read the row's entry back at every key.  The block of results is then, by unfolding,
  the shifted log-softmax of the block of logits, and the two are read at an index one after the other.
-/
import proofs.«112135_j8126078124685_1_alg».proof.Proof.Gen.KernelIdeal.Skeleton
import proofs.«112135_j8126078124685_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The three matrix products at an index

Each has one contracted axis of extent 256.  The operand indices at an output index and a contraction index are read
axis by axis; the contraction index is its one coordinate. -/

/-! ### Key rows [1024, 256] times key weights [256, 256]: contraction of the left axis 1 with the right axis 0 -/

theorem lhs_keyProj_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_keyProj_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_keyProj_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_keyProj_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- Entry `(s, e)` of the product into the zero block: the sum over `d` of `a (s, d) · b (d, e)`. -/
theorem matmul_keyProj_apply (a : FVec Ideal S1024x256 .bf16) (b : FVec Ideal S256x256 .bf16) (s : Fin 1024) (e : Fin 256) :
    matmul (F := Ideal) dot_S1024x256_S256x256_S1024x256_1_0_0_1_n_n none a b (constant (F := Ideal) S1024x256 .f32 0x00000000#32) (ix2 s e)
      = ∑ d : Fin 256, a (ix2 s d) * b (ix2 d e) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 s e) ((contrEquiv1 dot_S1024x256_S256x256_S1024x256_1_0_0_1_n_n 256 rfl rfl).symm k) = ix2 s k := funext fun c => Fin.ext (by
    match c with
    | ⟨0, _⟩ => exact lhs_keyProj_0 _ _
    | ⟨1, _⟩ => exact (lhs_keyProj_1 _ _).trans hk)
  have er : dot_S1024x256_S256x256_S1024x256_1_0_0_1_n_n.rhsIdx (ix2 s e) ((contrEquiv1 dot_S1024x256_S256x256_S1024x256_1_0_0_1_n_n 256 rfl rfl).symm k) = ix2 k e := funext fun c => Fin.ext (by
    match c with
    | ⟨0, _⟩ => exact (rhs_keyProj_0 _ _).trans hk
    | ⟨1, _⟩ => exact rhs_keyProj_1 _ _)
  rw [el, er]

/-! ### Query rows [256, 256] times query weights [256, 256]: contraction of the left axis 1 with the right axis 0 -/

theorem lhs_queryProj_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem lhs_queryProj_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_queryProj_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_queryProj_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- Entry `(r, e)` of the product into the zero block: the sum over `d` of `a (r, d) · b (d, e)`. -/
theorem matmul_queryProj_apply (a : FVec Ideal S256x256 .bf16) (b : FVec Ideal S256x256 .bf16) (r : Fin 256) (e : Fin 256) :
    matmul (F := Ideal) dot_S256x256_S256x256_S256x256_1_0_0_1_n_n none a b (constant (F := Ideal) S256x256 .f32 0x00000000#32) (ix2 r e)
      = ∑ d : Fin 256, a (ix2 r d) * b (ix2 d e) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 r e) ((contrEquiv1 dot_S256x256_S256x256_S256x256_1_0_0_1_n_n 256 rfl rfl).symm k) = ix2 r k := funext fun c => Fin.ext (by
    match c with
    | ⟨0, _⟩ => exact lhs_queryProj_0 _ _
    | ⟨1, _⟩ => exact (lhs_queryProj_1 _ _).trans hk)
  have er : dot_S256x256_S256x256_S256x256_1_0_0_1_n_n.rhsIdx (ix2 r e) ((contrEquiv1 dot_S256x256_S256x256_S256x256_1_0_0_1_n_n 256 rfl rfl).symm k) = ix2 k e := funext fun c => Fin.ext (by
    match c with
    | ⟨0, _⟩ => exact (rhs_queryProj_0 _ _).trans hk
    | ⟨1, _⟩ => exact rhs_queryProj_1 _ _)
  rw [el, er]

/-! ### Projected queries [256, 256] against projected keys [1024, 256]: contraction of the left axis 1 with the right
axis 1, so that the right operand is read transposed -/

theorem lhs_score_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhs_score_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhs_score_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhs_score_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

/-- Entry `(r, s)` of the product into the zero block: the sum over `e` of `a (r, e) · b (s, e)`. -/
theorem matmul_score_apply (a : FVec Ideal S256x256 .bf16) (b : FVec Ideal S1024x256 .bf16) (r : Fin 256) (s : Fin 1024) :
    matmul (F := Ideal) dot_S256x256_S1024x256_S256x1024_1_1_0_0_n_n none a b (constant (F := Ideal) S256x1024 .f32 0x00000000#32) (ix2 r s)
      = ∑ e : Fin 256, a (ix2 r e) * b (ix2 s e) := by
  simp only [matmul]
  rw [Ideal.matmul_constant_zero_apply, ← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 r s) ((contrEquiv1 dot_S256x256_S1024x256_S256x1024_1_1_0_0_n_n 256 rfl rfl).symm k) = ix2 r k := funext fun c => Fin.ext (by
    match c with
    | ⟨0, _⟩ => exact lhs_score_0 _ _
    | ⟨1, _⟩ => exact (lhs_score_1 _ _).trans hk)
  have er : dot_S256x256_S1024x256_S256x1024_1_1_0_0_n_n.rhsIdx (ix2 r s) ((contrEquiv1 dot_S256x256_S1024x256_S256x1024_1_1_0_0_n_n 256 rfl rfl).symm k) = ix2 s k := funext fun c => Fin.ext (by
    match c with
    | ⟨0, _⟩ => exact rhs_score_0 _ _
    | ⟨1, _⟩ => exact (rhs_score_1 _ _).trans hk)
  rw [el, er]

/-! ## The column forms of a row-indexed vector

A lane reduction of the [256, 1024] block leaves one entry per row, [256]; the body re-lays it as a column
[256, 1] and spreads the column over the 1024 keys. -/

/-- A `[256]` vector cast to the column `[256, 1]` reads, at `(r, u)`, the operand at `r`. -/
theorem shapeCast_column_apply {α : Type} (x : S256.Idx → α) (h : S256.ShapeCasts S256x1) (r : Fin 256) (u : Fin 1) :
    shapeCast S256x1 x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column `[256, 1]` broadcast to `[256, 1024]` reads, at `(r, s)`, the column's entry of row `r`. -/
theorem broadcastTo_column_apply {α : Type} (x : S256x1.Idx → α) (h : S256x1.Broadcasts S256x1024) (r : Fin 256) (s : Fin 1024) :
    broadcastTo S256x1024 x h (ix2 r s) = x (ix2 r (0 : Fin 1)) := by
  refine broadcastTo_apply x h (ix2 r s) (ix2 r (0 : Fin 1)) fun ax => ?_
  match ax with
  | ⟨0, _⟩ => rfl
  | ⟨1, _⟩ => rfl

/-! ## The two lane reductions at a row -/

/-- The maximum along the keys, from the pattern of `-∞`: at row `r` the fold of `max` over the row's 1024 entries. -/
theorem rowMax_apply (x : FVec Ideal S256x1024 .f32) (r : Fin 256) :
    multiReduction (F := Ideal) .maximumf [1] S256 x 0xFF800000#32 reduces_S256x1024_S256 (.inl rfl) rfl (ix1 r)
      = Cert.Attn.rowMax (fun s => x (ix2 r s)) := by
  refine (Ideal.multiReduction_maximumf_single x 0xFF800000#32 reduces_S256x1024_S256 (.inl rfl) rfl (ix1 r)).trans ?_
  unfold Cert.Attn.rowMax
  refine congrArg (fun f => (Finset.univ : Finset (Fin 1024)).fold max (Ideal.ofBits .f32 0xFF800000#32) f) ?_
  funext k
  refine congrArg x (funext fun c => Fin.ext ?_)
  match c with
  | ⟨0, _⟩ => rfl
  | ⟨1, _⟩ => rfl

/-- The sum along the keys, from zero: at row `r` the sum of the row's 1024 entries. -/
theorem rowSum_apply (x : FVec Ideal S256x1024 .f32) (r : Fin 256) :
    multiReduction (F := Ideal) .add [1] S256 x 0x00000000#32 reduces_S256x1024_S256 (.inl rfl) rfl (ix1 r)
      = ∑ s : Fin 1024, x (ix2 r s) := by
  refine (Ideal.multiReduction_add_single x 0x00000000#32 reduces_S256x1024_S256 (.inl rfl) rfl (ix1 r)).trans ?_
  refine Finset.sum_congr rfl fun k _ => ?_
  refine congrArg x (funext fun c => Fin.ext ?_)
  match c with
  | ⟨0, _⟩ => rfl
  | ⟨1, _⟩ => rfl

/-! ## The elementwise functions at an index -/

section Pointwise
variable {sh : Shape} {φ : FTy}

/-- An exponential at an index is the exponential of the element … -/
theorem exp_apply (a : FVec Ideal sh φ) (i : sh.Idx) : exp a i = Ideal.exp (a i) := rfl
/-- … a logarithm the logarithm … -/
theorem log_apply (a : FVec Ideal sh φ) (i : sh.Idx) : log a i = Ideal.log (a i) := rfl
/-- … and a hyperbolic tangent the hyperbolic tangent of the element. -/
theorem tanh_apply (a : FVec Ideal sh φ) (i : sh.Idx) : tanh a i = Ideal.tanh (a i) := rfl
/-- An integer comparison at an index compares the elements. -/
theorem cmpi_apply {w : Nat} (p : CmpIPredicate) (a b : IVec sh w) (i : sh.Idx) : cmpi p a b i = IntOp.cmpi p (a i) (b i) := rfl

end Pointwise

/-! ## The log-softmax of a block along its rows

The body's last ten operations, as a function of the [256, 1024] block `x` they start from: every row less its
maximum (`shiftBlock`), and that less the logarithm of the row's sum of exponentials (`logSoftmaxBlock`). -/

/-- A block less its row maxima, each spread back over its row. -/
def shiftBlock (x : FVec Ideal S256x1024 .f32) : FVec Ideal S256x1024 .f32 :=
  subf x (broadcastTo S256x1024
    (shapeCast S256x1 (multiReduction (F := Ideal) .maximumf [1] S256 x 0xFF800000#32 reduces_S256x1024_S256 (.inl rfl) rfl)
      shapeCasts_S256_S256x1 : FVec Ideal S256x1 .f32)
    broadcasts_S256x1_S256x1024)

/-- The shifted block less the logarithm of its row sums of exponentials, each spread back over its row. -/
def logSoftmaxBlock (x : FVec Ideal S256x1024 .f32) : FVec Ideal S256x1024 .f32 :=
  subf (shiftBlock x) (broadcastTo S256x1024
    (log (shapeCast S256x1
      (multiReduction (F := Ideal) .add [1] S256 (exp (shiftBlock x)) 0x00000000#32 reduces_S256x1024_S256 (.inl rfl) rfl)
      shapeCasts_S256_S256x1 : FVec Ideal S256x1 .f32))
    broadcasts_S256x1_S256x1024)

/-- Entry `(r, s)` of the shifted block: the entry less the maximum of row `r`. -/
theorem shiftBlock_apply (x : FVec Ideal S256x1024 .f32) (r : Fin 256) (s : Fin 1024) :
    shiftBlock x (ix2 r s) = x (ix2 r s) - Cert.Attn.rowMax (fun s' => x (ix2 r s')) := by
  unfold shiftBlock
  rw [subf_apply, broadcastTo_column_apply, shapeCast_column_apply, rowMax_apply]

/-- Entry `(r, s)` of the log-softmax block: the log-softmax of row `r` at `s`. -/
theorem logSoftmaxBlock_apply (x : FVec Ideal S256x1024 .f32) (r : Fin 256) (s : Fin 1024) :
    logSoftmaxBlock x (ix2 r s) = Cert.Attn.logSoftmax (fun s' => x (ix2 r s')) s := by
  unfold logSoftmaxBlock Cert.Attn.logSoftmax
  rw [subf_apply, broadcastTo_column_apply, log_apply, shapeCast_column_apply, rowSum_apply, shiftBlock_apply]
  simp only [exp_apply, shiftBlock_apply]

/-! ## The block of logits -/

/-- The block of logits as the body computes it from the query block `v3`, the query weights `v6`, the projected
    keys `v9` and the mask block `v18`: the projected queries against the projected keys, scaled, clipped, and
    replaced by the constant where the mask is 1. -/
def logitBlock (v3 : Vec Ideal S1x256x256 .f32) (v6 : Vec Ideal S256x256 .f32) (v9 : Vec Ideal S1024x256 .f32)
    (v18 : Vec Ideal S1x256x1024 .i32) : FVec Ideal S256x1024 .f32 :=
  select
    (cmpi .eq (shapeCast S256x1024 v18 shapeCasts_S1x256x1024_S256x1024 : IVec S256x1024 32) (broadcast S256x1024 1#32))
    (broadcast S256x1024 (Scalar.ofBits (F := Ideal) .f32 0xCCBEBC20#32))
    (mulf (broadcast S256x1024 (Scalar.ofBits (F := Ideal) .f32 0x41200000#32))
      (tanh (mulf
        (matmul (F := Ideal) dot_S256x256_S1024x256_S256x1024_1_1_0_0_n_n none
          (truncf .bf16
            (matmul (F := Ideal) dot_S256x256_S256x256_S256x256_1_0_0_1_n_n none
              (truncf .bf16 (shapeCast S256x256 v3 shapeCasts_S1x256x256_S256x256 : FVec Ideal S256x256 .f32) bitsLt_bf16_f32 : FVec Ideal S256x256 .bf16)
              (truncf .bf16 v6 bitsLt_bf16_f32 : FVec Ideal S256x256 .bf16)
              (constant (F := Ideal) S256x256 .f32 0x00000000#32))
            bitsLt_bf16_f32 : FVec Ideal S256x256 .bf16)
          (truncf .bf16 v9 bitsLt_bf16_f32 : FVec Ideal S1024x256 .bf16)
          (constant (F := Ideal) S256x1024 .f32 0x00000000#32))
        (broadcast S256x1024 (Scalar.ofBits (F := Ideal) .f32 0x3D800000#32)))))

/-- Entry `(r, s)` of the block of logits: the logit of the projected query row `r` against projected key row `s`
    under mask row `r`. -/
theorem logitBlock_apply (v3 : Vec Ideal S1x256x256 .f32) (v6 : Vec Ideal S256x256 .f32) (v9 : Vec Ideal S1024x256 .f32)
    (v18 : Vec Ideal S1x256x1024 .i32) (r : Fin 256) (s : Fin 1024) :
    logitBlock v3 v6 v9 v18 (ix2 r s)
      = Cert.Attn.logitOf (fun e => ∑ d : Fin 256, v3 (ix3 0 r d) * v6 (ix2 d e))
          (fun s' e => v9 (ix2 s' e)) (fun s' => v18 (ix3 0 r s')) s := by
  unfold logitBlock Cert.Attn.logitOf
  rw [select_apply, cmpi_apply, broadcast_apply, broadcast_apply, mulf_apply, broadcast_apply, tanh_apply, mulf_apply,
    broadcast_apply, matmul_score_apply, shapeCast_1ab_ab_apply]
  simp only [truncf_apply, matmul_queryProj_apply, shapeCast_1ab_ab_apply]
  rfl

/-- The body's result block is the log-softmax block of its block of logits: by unfolding. -/
theorem pay3_eq (v3 : Vec Ideal S1x256x256 .f32) (v6 : Vec Ideal S256x256 .f32) (v9 : Vec Ideal S1024x256 .f32)
    (v18 : Vec Ideal S1x256x1024 .i32) :
    k0_pay3 (F := Ideal) v3 v6 v9 v18 = logSoftmaxBlock (logitBlock v3 v6 v9 v18) := rfl

/-- The projected key block: row `s`, entry `e` is the inner product of key row `s` with column `e` of the weights. -/
theorem pay2_apply (v37 : Vec Ideal S1x1024x256 .f32) (v40 : Vec Ideal S256x256 .f32) (s : Fin 1024) (e : Fin 256) :
    k0_pay2 (F := Ideal) v37 v40 (ix2 s e) = ∑ d : Fin 256, v37 (ix3 0 s d) * v40 (ix2 d e) := by
  unfold k0_pay2
  rw [shapeCast_self]
  refine (matmul_keyProj_apply _ _ s e).trans ?_
  refine Finset.sum_congr rfl fun d _ => ?_
  rw [truncf_apply, truncf_apply, shapeCast_1ab_ab_apply]

/-- The block of results: row `r`, entry `s` is the log-softmax along `s` of the logits of query row `r`. -/
theorem pay3_apply (v3 : Vec Ideal S1x256x256 .f32) (v6 : Vec Ideal S256x256 .f32) (v9 : Vec Ideal S1024x256 .f32)
    (v18 : Vec Ideal S1x256x1024 .i32) (r : Fin 256) (s : Fin 1024) :
    k0_pay3 (F := Ideal) v3 v6 v9 v18 (ix2 r s)
      = Cert.Attn.logSoftmax (Cert.Attn.logitOf (fun e => ∑ d : Fin 256, v3 (ix3 0 r d) * v6 (ix2 d e))
          (fun s' e => v9 (ix2 s' e)) (fun s' => v18 (ix3 0 r s'))) s := by
  rw [pay3_eq, logSoftmaxBlock_apply]
  exact congrArg (fun f => Cert.Attn.logSoftmax f s) (funext fun s' => logitBlock_apply v3 v6 v9 v18 r s')

/-- The stored block is the [256, 1024] result with a unit leading axis. -/
theorem pay1_apply (v33 : FVec Ideal S256x1024 .f32) (r : Fin 256) (s : Fin 1024) :
    k0_pay1 (F := Ideal) v33 (ix3 0 r s) = v33 (ix2 r s) := by
  unfold k0_pay1
  exact shapeCast_ab_1ab_apply v33 _ 0 r s

end Cert.KernelIdeal.Pay

end
-- ==== Proof.KernelValue.lean ====
/-
  The idealized kernel's result array is the specification `G` of its argument arrays.

  The grid has 64 × 4 points; point `t` works on batch `t / 4` and on the 256 query rows from `256 · (t % 4)`.
  Its query, mask and output blocks are those rows of that batch, its key block is the whole batch, the two weight
  blocks are the whole matrices (`idx_facts`, the block reads).  The scratch buffer is stored at the first point of a
  batch with the projected keys of that batch and only read at the other three, so after every point it holds the
  projected keys of the point's own batch (`scratch_eq`, by induction on the point).  Hence every point writes back,
  into its block of the result, the log-softmax rows of the specification (`written_eq`); the 256 blocks tile the
  result array (`covered`), which therefore ends at `G` (`final`).
-/
import proofs.«112135_j8126078124685_1_alg».proof.Proof.Gen.KernelIdeal.Value
import proofs.«112135_j8126078124685_1_alg».proof.Proof.Pieces
import proofs.«112135_j8126078124685_1_alg».proof.Proof.Payload
import proofs.«112135_j8126078124685_1_alg».proof.Proof.Spec
import Idealize.ShloMosaic.Lib.Pipeline.Value
import Idealize.ShloMosaic.Lib.ValueIdx

noncomputable section

namespace Cert.KernelIdeal.RefValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays and the blocks, at their literal types -/

abbrev qarr (c : Dev nD) : Vec Ideal S64x1024x256 .f32 := V m c main_arg0
abbrev karr (c : Dev nD) : Vec Ideal S64x1024x256 .f32 := V m c main_arg1
abbrev wqarr (c : Dev nD) : Vec Ideal S256x256 .f32 := V m c main_arg2
abbrev wkarr (c : Dev nD) : Vec Ideal S256x256 .f32 := V m c main_arg3
abbrev marr (c : Dev nD) : Vec Ideal S64x1024x1024 .i32 := V m c main_arg4

abbrev qblk (c : Dev nD) (t : Fin cfg0.N) : Vec Ideal S1x256x256 .f32 := iblk m c 0 t
abbrev kblk (c : Dev nD) (t : Fin cfg0.N) : Vec Ideal S1x1024x256 .f32 := iblk m c 1 t
abbrev wqblk (c : Dev nD) (t : Fin cfg0.N) : Vec Ideal S256x256 .f32 := iblk m c 2 t
abbrev wkblk (c : Dev nD) (t : Fin cfg0.N) : Vec Ideal S256x256 .f32 := iblk m c 3 t
abbrev mblk (c : Dev nD) (t : Fin cfg0.N) : Vec Ideal S1x256x1024 .i32 := iblk m c 4 t

/-- The result the kernel is to leave: the specification of the five argument arrays. -/
abbrev result (c : Dev nD) : Buf (Elt Ideal) ((c : Thread nD τ).loc main_v0) :=
  Cert.Attn.G (qarr m c) (karr m c) (wqarr m c) (wkarr m c) (marr m c)

/-! ## The grid: batch and rows of a point, and the printed index maps -/

theorem point_lt (t : Fin cfg0.N) : t.val < 256 := lt_of_lt_of_eq t.isLt (show cfg0.N = 256 from N_0)

/-- The batch point `t` works on, -/
def batchOf (t : Fin cfg0.N) : Fin 64 := ⟨t.val / 4, by have := point_lt t; omega⟩
/-- and the query row its block's row `r` is. -/
def rowOf (t : Fin cfg0.N) (r : Fin 256) : Fin 1024 := ⟨256 * (t.val % 4) + r.val, by have := r.isLt; omega⟩

/-- The printed index maps, decided over the grid: the query, mask and output blocks follow (batch, row block),
    the key block the batch alone, the weight blocks never move. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = t.val % 4 ∧ win0_5.index t (2 : Fin 3) = 0 :=
  (by decide +kernel : ∀ t : Fin grid0.N, _)

/-! ## The blocks, read off the arrays -/

/-- Row `r` of the query block is query row `rowOf t r` of the point's batch. -/
theorem qblk_apply (c : Dev nD) (t : Fin cfg0.N) (r d : Fin 256) :
    qblk m c t (ix3 0 r d) = qarr m c (ix3 (batchOf t) (rowOf t r) d) := by
  obtain ⟨e0, e1, e2, -⟩ := idx_facts t
  show ((cfg0.win 0).blk t).view.read (Elt Ideal) (V m c (Pipeline.arrRef spec0 0)) (ix3 0 r d) = _
  rw [View.read_apply]
  show V m c main_arg0 (((cfg0.win 0).blk t).view.emb (ix3 0 r d)) = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 256 + 1 * r.val = 256 * (t.val % 4) + r.val; omega
  | ⟨2, _⟩ => show win0_0.index t (2 : Fin 3) * 256 + 1 * d.val = d.val; omega

/-- Row `s` of the key block is key row `s` of the point's batch. -/
theorem kblk_apply (c : Dev nD) (t : Fin cfg0.N) (s : Fin 1024) (d : Fin 256) :
    kblk m c t (ix3 0 s d) = karr m c (ix3 (batchOf t) s d) := by
  obtain ⟨-, -, -, e0, e1, e2, -⟩ := idx_facts t
  show ((cfg0.win 1).blk t).view.read (Elt Ideal) (V m c (Pipeline.arrRef spec0 1)) (ix3 0 s d) = _
  rw [View.read_apply]
  show V m c main_arg1 (((cfg0.win 1).blk t).view.emb (ix3 0 s d)) = V m c main_arg1 _
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 1024 + 1 * s.val = s.val; omega
  | ⟨2, _⟩ => show win0_1.index t (2 : Fin 3) * 256 + 1 * d.val = d.val; omega

/-- The query weights' block is the whole matrix, -/
theorem wqblk_apply (c : Dev nD) (t : Fin cfg0.N) (d e : Fin 256) :
    wqblk m c t (ix2 d e) = wqarr m c (ix2 d e) := by
  obtain ⟨-, -, -, -, -, -, e0, e1, -⟩ := idx_facts t
  show ((cfg0.win 2).blk t).view.read (Elt Ideal) (V m c (Pipeline.arrRef spec0 2)) (ix2 d e) = _
  rw [View.read_apply]
  show V m c main_arg2 (((cfg0.win 2).blk t).view.emb (ix2 d e)) = V m c main_arg2 _
  refine congrArg (V m c main_arg2) (funext fun a => Fin.ext ?_)
  match a with
  | ⟨0, _⟩ => show win0_2.index t (0 : Fin 2) * 256 + 1 * d.val = d.val; omega
  | ⟨1, _⟩ => show win0_2.index t (1 : Fin 2) * 256 + 1 * e.val = e.val; omega

/-- and so is the key weights'. -/
theorem wkblk_apply (c : Dev nD) (t : Fin cfg0.N) (d e : Fin 256) :
    wkblk m c t (ix2 d e) = wkarr m c (ix2 d e) := by
  obtain ⟨-, -, -, -, -, -, -, -, e0, e1, -⟩ := idx_facts t
  show ((cfg0.win 3).blk t).view.read (Elt Ideal) (V m c (Pipeline.arrRef spec0 3)) (ix2 d e) = _
  rw [View.read_apply]
  show V m c main_arg3 (((cfg0.win 3).blk t).view.emb (ix2 d e)) = V m c main_arg3 _
  refine congrArg (V m c main_arg3) (funext fun a => Fin.ext ?_)
  match a with
  | ⟨0, _⟩ => show win0_3.index t (0 : Fin 2) * 256 + 1 * d.val = d.val; omega
  | ⟨1, _⟩ => show win0_3.index t (1 : Fin 2) * 256 + 1 * e.val = e.val; omega

/-- Row `r` of the mask block is mask row `rowOf t r` of the point's batch. -/
theorem mblk_apply (c : Dev nD) (t : Fin cfg0.N) (r : Fin 256) (s : Fin 1024) :
    mblk m c t (ix3 0 r s) = marr m c (ix3 (batchOf t) (rowOf t r) s) := by
  obtain ⟨-, -, -, -, -, -, -, -, -, -, e0, e1, e2, -⟩ := idx_facts t
  show ((cfg0.win 4).blk t).view.read (Elt Ideal) (V m c (Pipeline.arrRef spec0 4)) (ix3 0 r s) = _
  rw [View.read_apply]
  show V m c main_arg4 (((cfg0.win 4).blk t).view.emb (ix3 0 r s)) = V m c main_arg4 _
  refine congrArg (V m c main_arg4) (funext fun a => Fin.ext ?_)
  match a with
  | ⟨0, _⟩ => show win0_4.index t (0 : Fin 3) * 1 + 1 * 0 = t.val / 4; omega
  | ⟨1, _⟩ => show win0_4.index t (1 : Fin 3) * 256 + 1 * r.val = 256 * (t.val % 4) + r.val; omega
  | ⟨2, _⟩ => show win0_4.index t (2 : Fin 3) * 1024 + 1 * s.val = s.val; omega

/-! ## The carried scratch: the projected keys of the point's batch -/

/-- The projected keys of batch `b`, as a [1024, 256] block. -/
def kproj (c : Dev nD) (b : Fin 64) : Vec Ideal S1024x256 .f32 :=
  fun j => Cert.Attn.proj (karr m c) (wkarr m c) b (j 0) (j 1)

/-- The key block of ANY point of a batch, projected, is the projected keys of that batch. -/
theorem pay2_blocks (c : Dev nD) (t : Fin cfg0.N) :
    k0_pay2 (F := Ideal) (kblk m c t) (wkblk m c t) = kproj m c (batchOf t) := by
  funext j
  obtain ⟨s, e, rfl⟩ : ∃ (s : Fin 1024) (e : Fin 256), j = ix2 s e := ⟨j 0, j 1, eq_ix2 j⟩
  refine (Cert.KernelIdeal.Pay.pay2_apply (kblk m c t) (wkblk m c t) s e).trans ?_
  show _ = Cert.Attn.proj (karr m c) (wkarr m c) (batchOf t) s e
  unfold Cert.Attn.proj
  refine Finset.sum_congr rfl fun d _ => ?_
  rw [kblk_apply m c t s d, wkblk_apply m c t d e]

/-- A point that opens a batch leaves the batch's projected keys in the scratch. -/
theorem scratch_first_eq (c : Dev nD) (t : Fin cfg0.N) (h0 : t.val % 4 = 0) :
    (outsAt0 m c t.val t.isLt).2 = kproj m c (batchOf t) := by
  rw [outsAt0_A m c t h0]
  dsimp only
  exact (Cert.KernelIdeal.Pieces.scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qblk m c t) (kblk m c t) (wqblk m c t) (wkblk m c t) (mblk m c t)).trans (pay2_blocks m c t)

/-- AFTER EVERY POINT the scratch holds the projected keys of the point's batch: stored at the batch's first point,
    kept by the other three. -/
theorem scratch_eq (c : Dev nD) : ∀ (n : ℕ) (h : n < cfg0.N), (outsAt0 m c n h).2 = kproj m c (batchOf ⟨n, h⟩)
  | 0, h => scratch_first_eq m c ⟨0, h⟩ rfl
  | n + 1, h => by
    by_cases h0 : (n + 1) % 4 = 0
    · exact scratch_first_eq m c ⟨n + 1, h⟩ h0
    · have hB : ¬(⟨n + 1, h⟩ : Fin cfg0.N).val % 4 = 0 := h0
      rw [outsAt0_B m c ⟨n + 1, h⟩ hB]
      dsimp only
      unfold sout0_B_0
      show (outsAt0 m c n (Nat.lt_of_succ_lt h)).2 = _
      rw [scratch_eq c n (Nat.lt_of_succ_lt h)]
      refine congrArg (kproj m c) (Fin.ext ?_)
      show n / 4 = (n + 1) / 4
      omega

/-! ## What a point writes back -/

/-- The log-softmax of a row of logits depends only on the three things the logits are made of. -/
theorem logSoftmax_congr {A A' : Fin 256 → EReal} {B B' : Fin 1024 → Fin 256 → EReal} {C C' : Fin 1024 → BitVec 32}
    (hA : A = A') (hB : B = B') (hC : C = C') (s : Fin 1024) :
    Cert.Attn.logSoftmax (Cert.Attn.logitOf A B C) s = Cert.Attn.logSoftmax (Cert.Attn.logitOf A' B' C') s := by
  subst hA hB hC; rfl

/-- The payload of a point's blocks and of its batch's projected keys, laid out as the output block, is the point's
    block of the specification. -/
theorem block_value (c : Dev nD) (t : Fin cfg0.N) :
    (cfg0.win 5).cut (grid0.coords t)
        (k0_pay1 (F := Ideal) (k0_pay3 (F := Ideal) (qblk m c t) (wqblk m c t) (kproj m c (batchOf t)) (mblk m c t)))
      = ((cfg0.win 5).blk t).view.read (Elt Ideal) (result m c) := by
  obtain ⟨-, -, -, -, -, -, -, -, -, -, -, -, -, o0, o1, o2⟩ := idx_facts t
  funext j
  obtain ⟨z, r, s, rfl⟩ : ∃ (z : Fin 1) (r : Fin 256) (s : Fin 1024), j = ix3 z r s := ⟨j 0, j 1, j 2, eq_ix3 j⟩
  obtain rfl : z = 0 := Subsingleton.elim _ _
  rw [View.read_apply]
  show k0_pay1 (F := Ideal) _ (ix3 0 r s) = result m c (((cfg0.win 5).blk t).view.emb (ix3 0 r s))
  have hemb : ((cfg0.win 5).blk t).view.emb (ix3 0 r s) = ix3 (batchOf t) (rowOf t r) s := funext fun a => Fin.ext (by
    match a with
    | ⟨0, _⟩ => show win0_5.index t (0 : Fin 3) * 1 + 1 * 0 = t.val / 4; omega
    | ⟨1, _⟩ => show win0_5.index t (1 : Fin 3) * 256 + 1 * r.val = 256 * (t.val % 4) + r.val; omega
    | ⟨2, _⟩ => show win0_5.index t (2 : Fin 3) * 1024 + 1 * s.val = s.val; omega)
  rw [hemb]
  refine (Cert.KernelIdeal.Pay.pay1_apply _ r s).trans
    ((Cert.KernelIdeal.Pay.pay3_apply (qblk m c t) (wqblk m c t) (kproj m c (batchOf t)) (mblk m c t) r s).trans ?_)
  show _ = Cert.Attn.logSoftmax (Cert.Attn.logit (qarr m c) (karr m c) (wqarr m c) (wkarr m c) (marr m c) (batchOf t) (rowOf t r)) s
  unfold Cert.Attn.logit
  refine logSoftmax_congr ?_ ?_ ?_ s
  · funext e
    unfold Cert.Attn.proj
    refine Finset.sum_congr rfl fun d _ => ?_
    rw [qblk_apply m c t r d, wqblk_apply m c t d e]
  · rfl
  · funext s'
    exact mblk_apply m c t r s'

/-- WHAT POINT `t` WRITES BACK is its block of the specification, at the first point of a batch and at the others. -/
theorem written_eq (c : Dev nD) (t : Fin cfg0.N) :
    (dats m 0 c).flushed 5 t = ((cfg0.win 5).blk t).view.read (Elt Ideal) (result m c) := by
  by_cases h0 : t.val % 4 = 0
  · rw [flushed5_A m c t h0]
    refine (congrArg ((cfg0.win 5).cut (grid0.coords t))
      ((Cert.KernelIdeal.Pieces.out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (qblk m c t) (kblk m c t) (wqblk m c t) (wkblk m c t) (mblk m c t)).trans
        (congrArg (fun kp => k0_pay1 (F := Ideal) (k0_pay3 (F := Ideal) (qblk m c t) (wqblk m c t) kp (mblk m c t))) (pay2_blocks m c t)))).trans ?_
    exact block_value m c t
  · rw [flushed5_B m c t h0]
    have hprev : (outsAt0 m c (t.val - 1) (Nat.lt_of_le_of_lt (Nat.sub_le _ _) t.isLt)).2 = kproj m c (batchOf t) := by
      rw [scratch_eq m c (t.val - 1) (Nat.lt_of_le_of_lt (Nat.sub_le _ _) t.isLt)]
      refine congrArg (kproj m c) (Fin.ext ?_)
      show (t.val - 1) / 4 = t.val / 4
      omega
    refine (congrArg ((cfg0.win 5).cut (grid0.coords t))
      ((Cert.KernelIdeal.Pieces.out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (qblk m c t) (kblk m c t) (wqblk m c t) (wkblk m c t) (mblk m c t)
          (outsAt0 m c (t.val - 1) (Nat.lt_of_le_of_lt (Nat.sub_le _ _) t.isLt)).2).trans
        (congrArg (fun kp => k0_pay1 (F := Ideal) (k0_pay3 (F := Ideal) (qblk m c t) (wqblk m c t) kp (mblk m c t))) hprev))).trans ?_
    exact block_value m c t

/-! ## The blocks tile the result array -/

/-- An index of the result is in point `t`'s block iff each coordinate is in the block's range on its axis. -/
theorem mem_blk (t : Fin cfg0.N) (i : S64x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v0).slice (win0_5.rect t)).set ↔ _
  rw [View.set_slice_whole, Rect.mem_set_unit]
  exact Iff.rfl

/-- Entry (b, r, s) of the result lies in the block of point `4 b + r / 256`. -/
theorem covered (i : S64x1024x1024.Idx) :
    ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 1024 := (i 2).isLt
  have hN : cfg0.N = 256 := N_0
  refine ⟨⟨4 * (i 0).val + (i 1).val / 256, by rw [hN]; omega⟩, flush0_5 _, ?_⟩
  obtain ⟨-, -, -, -, -, -, -, -, -, -, -, -, -, o0, o1, o2⟩ :=
    idx_facts ⟨4 * (i 0).val + (i 1).val / 256, by rw [hN]; omega⟩
  rw [mem_blk]
  intro a
  match a with
  | ⟨0, _⟩ =>
    show win0_5.index _ (0 : Fin 3) * 1 ≤ (i 0).val ∧ (i 0).val < win0_5.index _ (0 : Fin 3) * 1 + 1
    rw [o0]; dsimp only; omega
  | ⟨1, _⟩ =>
    show win0_5.index _ (1 : Fin 3) * 256 ≤ (i 1).val ∧ (i 1).val < win0_5.index _ (1 : Fin 3) * 256 + 256
    rw [o1]; dsimp only; omega
  | ⟨2, _⟩ =>
    show win0_5.index _ (2 : Fin 3) * 1024 ≤ (i 2).val ∧ (i 2).val < win0_5.index _ (2 : Fin 3) * 1024 + 1024
    rw [o2]; omega

/-- THE RESULT ARRAY after the run is the specification of the argument arrays. -/
theorem final (c : Dev nD) : (dats m 0 c).arrAt 5 cfg0.N = result m c :=
  (dats m 0 c).arrAt_eq_of_cover 5 (result m c) (fun t _ => written_eq m c t) covered

/-! ## The run, read -/

/-- Every weakly fair execution of the idealized kernel terminates with the result array at the specification of
    the arguments, and the arguments unchanged. -/
theorem run : θ_run defs (onTc (τ := τ) (main (F := Ideal))) ⟨m, fun _ => 0, ρ⟩ fun r => ∀ c : Dev nD,
      r.2.mem ((c : Thread nD τ).loc main_v0)
        = Cert.Attn.G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.RefValue

end
-- ==== Proof.RefStaged.lean ====
/-
  The reference's run, read in two stretches.

  The reference is a straight line of 32 host operations.  The first 17 compute the masked logits (the two
  projections, the batched inner products, the scaling, the clipping, the mask's select); the last 15 are the library
  log-softmax along the last axis, a function of the masked logits alone.  Read in one piece the result is a term in
  which the masked logits occur four times; read in two stretches, each over the contents the stretch starts from,
  every term stays small: after the first stretch the logits' buffer holds `val_main_v10` of the arguments
  (`logits_after`), after the second the result buffer holds `lsm` of whatever the logits' buffer held
  (`result_after`), and `lsm` of the logits is the last stage `val_main_v11` (`lsm_logits`).
-/
import proofs.«112135_j8126078124685_1_alg».proof.Proof.RefRead
import Idealize.ShloMosaic.Lib.StableHlo.Run

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP (val_main_v10 val_main_v11)

variable {F : FTy → Type} [FloatOps F]

/-- The contents after two lines run one after the other: the second line's, from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The operations up to the masked logits, -/
abbrev opsLogits : List (HloOp τ sig (Elt F)) := (ops (F := F)).take 17
/-- and the log-softmax's. -/
abbrev opsSoftmax : List (HloOp τ sig (Elt F)) := (ops (F := F)).drop 17

theorem ops_split : (ops (F := F)) = opsLogits ++ opsSoftmax := (List.take_append_drop 17 _).symm

/-- After the first stretch the logits' buffer holds the stage `val_main_v10` of the five arguments. -/
theorem logits_after (V : Valuation τ sig (Elt F)) :
    after (opsLogits (F := F)) V (Proc.devRef .tc main_v10)
      = val_main_v10 (F := F) (V (Proc.devRef .tc main_arg0)) (V (Proc.devRef .tc main_arg1)) (V (Proc.devRef .tc main_arg2))
          (V (Proc.devRef .tc main_arg3)) (V (Proc.devRef .tc main_arg4)) := by
  show after [_, _, _, _, _, _, _, _, _, _, _, _, _, _, _, _, _] V _ = _
  after_results_simp <;> rfl

/-- The library log-softmax along the last axis as one function of its operand `x`: the row maximum folded from
    `-∞` and joined once more with `-∞`, the shifted operand, and the shifted operand less the logarithm of the row
    sums of its exponentials. -/
def lsm (x : (⟨S64x1024x1024, .f32⟩ : BufTy).Contents (Elt F)) : (⟨S64x1024x1024, .f32⟩ : BufTy).Contents (Elt F) :=
  subf
    (subf x (broadcastInDim S64x1024x1024 ![0, 1, 2] bcast_S64x1024x1_S64x1024x1024_0_1_2 (broadcastInDim S64x1024x1 ![0, 1] bcast_S64x1024_S64x1024x1_0_1
      (maximumf (broadcastInDim S64x1024 ![] bcast_S_S64x1024 (constant S_ .f32 0xFF800000#32))
        (Host.reduce FloatOps.maximumf x (constant S_ .f32 0xFF800000#32) reducesTo_S64x1024x1024_S64x1024_d2 h_S_)))))
    (broadcastInDim S64x1024x1024 ![0, 1, 2] bcast_S64x1024x1_S64x1024x1024_0_1_2 (Host.log (broadcastInDim S64x1024x1 ![0, 1] bcast_S64x1024_S64x1024x1_0_1
      (Host.reduceAdd (Host.exp
        (subf x (broadcastInDim S64x1024x1024 ![0, 1, 2] bcast_S64x1024x1_S64x1024x1024_0_1_2 (broadcastInDim S64x1024x1 ![0, 1] bcast_S64x1024_S64x1024x1_0_1
          (maximumf (broadcastInDim S64x1024 ![] bcast_S_S64x1024 (constant S_ .f32 0xFF800000#32))
            (Host.reduce FloatOps.maximumf x (constant S_ .f32 0xFF800000#32) reducesTo_S64x1024x1024_S64x1024_d2 h_S_))))))
        (constant S_ .f32 0x00000000#32) reducesTo_S64x1024x1024_S64x1024_d2 h_S_))))

/-- A value carried to a buffer's own type and back is the value: the two transports are inverse. -/
theorem ofBuf_toBuf {T : BufTy} (x : TRef sig T) (v : T.Contents (Elt F)) : x.ofBuf (x.toBuf v) = v := by
  obtain ⟨r, rfl, _, _⟩ := x
  rfl

/-- The logits' buffer and the result buffer have the value's own type: the transport is the identity there. -/
theorem ofBuf_logits (z : (Proc.devRef (τ := τ) .tc main_v10).ty.Contents (Elt F)) :
    (TRef.of (T := ⟨S64x1024x1024, .f32⟩) main_v10).ofBuf z = z := rfl
theorem toBuf_result (y : (⟨S64x1024x1024, .f32⟩ : BufTy).Contents (Elt F)) :
    (TRef.of (T := ⟨S64x1024x1024, .f32⟩) main_v11).toBuf y = y := rfl

/-- After the second stretch, from ANY contents, the result buffer holds `lsm` of what the logits' buffer held
    (each carried to its buffer's type, which is the value's own). -/
theorem result_after (W : Valuation τ sig (Elt F)) :
    after (opsSoftmax (F := F)) W (Proc.devRef .tc main_v11)
      = (TRef.of (T := ⟨S64x1024x1024, .f32⟩) main_v11).toBuf
          (lsm (F := F) ((TRef.of (T := ⟨S64x1024x1024, .f32⟩) main_v10).ofBuf (W (Proc.devRef .tc main_v10)))) := by
  show after [_, _, _, _, _, _, _, _, _, _, _, _, _, _, _] W _ = _
  after_results_simp
  simp only [ofBuf_toBuf]
  unfold lsm
  rfl

/-- `lsm` of the masked logits is the reference's last stage. -/
theorem lsm_logits (x0 x1 : (⟨S64x1024x256, .f32⟩ : BufTy).Contents (Elt F)) (x2 x3 : (⟨S256x256, .f32⟩ : BufTy).Contents (Elt F))
    (x4 : (⟨S64x1024x1024, .i32⟩ : BufTy).Contents (Elt F)) :
    lsm (F := F) (val_main_v10 (F := F) x0 x1 x2 x3 x4) = val_main_v11 (F := F) x0 x1 x2 x3 x4 := rfl

/-- The result buffer after the whole line. -/
theorem result_eq (m : (ℓ : Loc nD τ sig) → Buf (Elt F) ℓ) (c : Dev nD) :
    after (ops (F := F)) (launchContents m c) (Proc.devRef .tc main_v11)
      = val_main_v11 (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [ops_split, after_append, result_after, logits_after, toBuf_result, ofBuf_logits]
  exact lsm_logits _ _ _ _ _

set_option maxHeartbeats 2000000 in
/-- On every device, for any float values, from any memory with zero counters: every weakly fair execution of the
    reference terminates with the result buffer at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = val_main_v11 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v11).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Staged

end
-- ==== Proof.RefIsG.lean ====
/-
  The reference's last stage, read index by index, is the specification `Cert.Attn.G`.

  The reference projects all queries and all keys (two matrix products over the feature axis), takes the batched
  inner products of projected rows, scales by 2⁻⁴ (the constant is the LEFT factor there, the right one in the
  specification: a product of extended reals commutes), clips by `10 · tanh`, puts `-10⁸` where the mask is 1, and
  applies the library log-softmax along the last axis: a row maximum folded from `-∞` and then joined once more with
  `-∞` (which changes nothing), the shifted row, its exponentials summed from `0`, the logarithm, the difference.
-/
import proofs.«112135_j8126078124685_1_alg».proof.Proof.RefRead
import proofs.«112135_j8126078124685_1_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-! ## The composed index functions of the stages, at explicit coordinates -/

/-- Row (b, r) of the left operand of a projection, at feature `d`. -/
theorem lidx_v0_at (b : Fin 64) (r : Fin 1024) (e d : Fin 256) : lidx_main_v0 (ix3 b r e) d = ix3 b r d :=
  funext fun a => Fin.ext (by match a with | ⟨0, _⟩ => rfl | ⟨1, _⟩ => rfl | ⟨2, _⟩ => rfl)
/-- Entry (d, e) of the weight matrix. -/
theorem ridx_v0_at (b : Fin 64) (r : Fin 1024) (e d : Fin 256) : ridx_main_v0 (ix3 b r e) d = ix2 d e :=
  funext fun a => Fin.ext (by match a with | ⟨0, _⟩ => rfl | ⟨1, _⟩ => rfl)
theorem lidx_v1_at (b : Fin 64) (r : Fin 1024) (e d : Fin 256) : lidx_main_v1 (ix3 b r e) d = ix3 b r d :=
  funext fun a => Fin.ext (by match a with | ⟨0, _⟩ => rfl | ⟨1, _⟩ => rfl | ⟨2, _⟩ => rfl)
theorem ridx_v1_at (b : Fin 64) (r : Fin 1024) (e d : Fin 256) : ridx_main_v1 (ix3 b r e) d = ix2 d e :=
  funext fun a => Fin.ext (by match a with | ⟨0, _⟩ => rfl | ⟨1, _⟩ => rfl)
/-- The batched product reads query row `r` and key row `s` of the same batch, both at feature `e`. -/
theorem lidx_v2_at (b : Fin 64) (r s : Fin 1024) (e : Fin 256) : lidx_main_v2 (ix3 b r s) e = ix3 b r e :=
  funext fun a => Fin.ext (by match a with | ⟨0, _⟩ => rfl | ⟨1, _⟩ => rfl | ⟨2, _⟩ => rfl)
theorem ridx_v2_at (b : Fin 64) (r s : Fin 1024) (e : Fin 256) : ridx_main_v2 (ix3 b r s) e = ix3 b s e :=
  funext fun a => Fin.ext (by match a with | ⟨0, _⟩ => rfl | ⟨1, _⟩ => rfl | ⟨2, _⟩ => rfl)
/-- The two keepdims broadcasts of the row maximum read it at (b, r) … -/
theorem idx_max_at (b : Fin 64) (r s : Fin 1024) : idx_main_call1_v3 (idx_main_call1_v4 (ix3 b r s)) = ix2 b r :=
  funext fun a => Fin.ext (by match a with | ⟨0, _⟩ => rfl | ⟨1, _⟩ => rfl)
/-- … and so do the two of the logarithm of the row's sum. -/
theorem idx_log_at (b : Fin 64) (r s : Fin 1024) : idx_main_call1_v8 (idx_main_call1_v10 (ix3 b r s)) = ix2 b r :=
  funext fun a => Fin.ext (by match a with | ⟨0, _⟩ => rfl | ⟨1, _⟩ => rfl)
/-- The row sum ranges over the entries (b, r, s') of row (b, r). -/
theorem idx_sum_at (b : Fin 64) (r s' : Fin 1024) : idx_main_call1_v7 (ix2 b r) s' = ix3 b r s' :=
  funext fun a => Fin.ext (by match a with | ⟨0, _⟩ => rfl | ⟨1, _⟩ => rfl | ⟨2, _⟩ => rfl)
/-- Row index (b, r) with the coordinate `k` put back on the reduced last axis is (b, r, k). -/
theorem lift_row (h : S64x1024x1024.Reduces [2] S64x1024) (b : Fin 64) (r : Fin 1024) (k : Fin (S64x1024x1024.size 2)) :
    h.lift (ix2 b r) k = ix3 b r (⟨k.val, k.isLt⟩ : Fin 1024) :=
  funext fun c => Fin.ext (by match c with | ⟨0, _⟩ => rfl | ⟨1, _⟩ => rfl | ⟨2, _⟩ => rfl)

/-- Joining with the pattern of `-∞` changes nothing. -/
theorem max_negInf (y : EReal) : max (Ideal.ofBits .f32 0xFF800000#32) y = y := by
  simp [Ideal.ofBits, Ideal.ieee]

/-! ## The stages, from the inside out -/

section Stages

variable (x0 x1 : (⟨S64x1024x256, .f32⟩ : BufTy).Contents (Elt Ideal)) (x2 x3 : (⟨S256x256, .f32⟩ : BufTy).Contents (Elt Ideal))
  (x4 : (⟨S64x1024x1024, .i32⟩ : BufTy).Contents (Elt Ideal))

/-- The first product is the projected queries: a sum over the feature `d`. -/
theorem v0_at (b : Fin 64) (r : Fin 1024) (e : Fin 256) :
    val_main_v0 (F := Ideal) x0 x2 (ix3 b r e) = Cert.Attn.proj x0 x2 b r e := by
  rw [val_main_v0_apply]
  unfold Cert.Attn.proj
  refine Finset.sum_congr rfl fun d _ => ?_
  rw [lidx_v0_at, ridx_v0_at]

/-- The second product is the projected keys. -/
theorem v1_at (b : Fin 64) (r : Fin 1024) (e : Fin 256) :
    val_main_v1 (F := Ideal) x1 x3 (ix3 b r e) = Cert.Attn.proj x1 x3 b r e := by
  rw [val_main_v1_apply]
  unfold Cert.Attn.proj
  refine Finset.sum_congr rfl fun d _ => ?_
  rw [lidx_v1_at, ridx_v1_at]

/-- The batched product is the inner product, over the projected feature `e`, of projected query row `r` and
    projected key row `s`. -/
theorem v2_at (b : Fin 64) (r s : Fin 1024) :
    val_main_v2 (F := Ideal) x0 x1 x2 x3 (ix3 b r s)
      = ∑ e : Fin 256, Cert.Attn.proj x0 x2 b r e * Cert.Attn.proj x1 x3 b s e := by
  rw [val_main_v2_apply]
  refine Finset.sum_congr rfl fun e _ => ?_
  rw [lidx_v2_at, ridx_v2_at, v0_at, v1_at]

/-- The masked, clipped, scaled score is the specification's logit; the scale stands on the left here and on the right
    there, and a product of extended reals commutes. -/
theorem v10_at (b : Fin 64) (r s : Fin 1024) :
    val_main_v10 (F := Ideal) x0 x1 x2 x3 x4 (ix3 b r s) = Cert.Attn.logit x0 x1 x2 x3 x4 b r s := by
  rw [val_main_v10_apply, val_main_v9_apply, val_main_v8_apply, val_main_c_apply, val_main_call0_v1_apply,
    val_main_call0_v0_apply, val_main_cst_1_apply, val_main_v7_apply, val_main_v6_apply, val_main_cst_0_apply,
    val_main_v5_apply, val_main_v4_apply, val_main_v3_apply, val_main_cst_apply, v2_at]
  simp only [Ideal.mulf_def, Ideal.hostUnary_tanh_def, Ideal.ofBits_def]
  unfold Cert.Attn.logit Cert.Attn.logitOf
  rw [mul_comm (Ideal.ofBits .f32 0x3D800000#32)]

/-- The row maximum: the fold of `max` from `-∞` over the row's logits, joined once more with `-∞`. -/
theorem rowmax_at (b : Fin 64) (r : Fin 1024) :
    val_main_call1_v2 (F := Ideal) x0 x1 x2 x3 x4 (ix2 b r) = Cert.Attn.rowMax (Cert.Attn.logit x0 x1 x2 x3 x4 b r) := by
  have h : S64x1024x1024.Reduces [2] S64x1024 := by decide
  rw [val_main_call1_v2_apply, val_main_call1_v1_apply, val_main_call1_cst_0_apply]
  unfold val_main_call1_v0
  rw [Host.reduce_eq_fold_single FloatOps.maximumf _ _ reducesTo_S64x1024x1024_S64x1024_d2 h h_S_, val_main_call1_cst_apply]
  have hf : (val_main_v10 (F := Ideal) x0 x1 x2 x3 x4 ∘ h.lift (ix2 b r)) = fun k : Fin 1024 => Cert.Attn.logit x0 x1 x2 x3 x4 b r k :=
    funext fun k => by
      show val_main_v10 (F := Ideal) x0 x1 x2 x3 x4 (h.lift (ix2 b r) k) = _
      rw [lift_row, v10_at]
      rfl
  rw [hf]
  exact max_negInf _

/-- The shifted logits. -/
theorem shifted_at (b : Fin 64) (r s : Fin 1024) :
    val_main_call1_v5 (F := Ideal) x0 x1 x2 x3 x4 (ix3 b r s)
      = Cert.Attn.logit x0 x1 x2 x3 x4 b r s - Cert.Attn.rowMax (Cert.Attn.logit x0 x1 x2 x3 x4 b r) := by
  rw [val_main_call1_v5_apply, val_main_call1_v4_apply, val_main_call1_v3_apply, idx_max_at, rowmax_at, v10_at]
  rfl

/-- The row's sum of exponentials, from the zero pattern. -/
theorem sumexp_at (b : Fin 64) (r : Fin 1024) :
    val_main_call1_v7 (F := Ideal) x0 x1 x2 x3 x4 (ix2 b r)
      = ∑ s' : Fin 1024, Ideal.exp (Cert.Attn.logit x0 x1 x2 x3 x4 b r s' - Cert.Attn.rowMax (Cert.Attn.logit x0 x1 x2 x3 x4 b r)) := by
  rw [val_main_call1_v7_apply, val_main_call1_cst_1_apply, Ideal.ofBits_def, Ideal.ofBits_zero_f32, zero_add]
  refine Finset.sum_congr rfl fun s' _ => ?_
  rw [idx_sum_at, val_main_call1_v6_apply, shifted_at, Ideal.hostUnary_exp_def]

end Stages

/-- The reference's result, as a function of its five arguments, is `G` of them. -/
theorem ref_eq_G (x0 x1 : (⟨S64x1024x256, .f32⟩ : BufTy).Contents (Elt Ideal)) (x2 x3 : (⟨S256x256, .f32⟩ : BufTy).Contents (Elt Ideal))
    (x4 : (⟨S64x1024x1024, .i32⟩ : BufTy).Contents (Elt Ideal)) :
    val_main_v11 (F := Ideal) x0 x1 x2 x3 x4 = Cert.Attn.G x0 x1 x2 x3 x4 := by
  funext i
  obtain ⟨b, r, s, rfl⟩ : ∃ (b : Fin 64) (r : Fin 1024) (s : Fin 1024), i = ix3 b r s := ⟨i 0, i 1, i 2, eq_ix3 i⟩
  rw [val_main_v11_apply, val_main_call1_v10_apply, val_main_call1_v9_apply, val_main_call1_v8_apply, idx_log_at,
    sumexp_at, shifted_at, Cert.Attn.G_apply, Ideal.hostUnary_log_def, Ideal.subf_def]
  rfl

end Cert.ReferenceIdeal.RefValue

end
-- ==== Proof.lean ====
/-
  The certificate of a fused attention-logits kernel against its jnp reference, over the extended reals.

  Both programs compute, for every batch `b`, query row `r` and key row `s`,
      log_softmax over s of  [ -10⁸ if mask(b, r, s) = 1, else 10 · tanh( ⟨q(b, r) · Wq , k(b, s) · Wk⟩ · 2⁻⁴ ) ]
  (`Cert.Attn.G`, Proof/Spec.lean).  The kernel walks a 64 × 4 grid, projects a batch's keys once into a scratch
  buffer and reuses them at the batch's other three points; the reference takes whole-array matrix products and the
  library log-softmax.  Over the extended reals the two agree term by term: a matrix product into a zero accumulator and
  the host's dot product are the same sums, a change of float format is the identity, the scale `2⁻⁴` stands on
  either side of a commutative product, the reference's extra maximum with `-∞` changes nothing, and both subtract
  the same row maximum and the same logarithm of the same row sum.  No law that fails at an infinity is used, so the
  finiteness of the inputs is never opened.

  The kernel's value: Proof/Pieces.lean (what each control case stores), Proof/Payload.lean (the stored values at an
  index), Proof/KernelValue.lean (the scratch by induction on the grid point, the blocks, the cover).  The reference's
  value: Proof/RefStaged.lean (its run, in two stretches), Proof/RefIsG.lean (its last stage is `G`).  The ideal
  pass rewrote nothing, so `preserves` is `True`.
-/
import proofs.«112135_j8126078124685_1_alg».proof.Defs
import proofs.«112135_j8126078124685_1_alg».proof.Proof.Gen.Kernel
import proofs.«112135_j8126078124685_1_alg».proof.Proof.Gen.Kernel.Skeleton
import proofs.«112135_j8126078124685_1_alg».proof.Proof.Gen.Kernel.Launch
import proofs.«112135_j8126078124685_1_alg».proof.Proof.Gen.Kernel.Points
import proofs.«112135_j8126078124685_1_alg».proof.Proof.Gen.Kernel.Frame
import proofs.«112135_j8126078124685_1_alg».proof.Proof.Gen.KernelIdeal
import proofs.«112135_j8126078124685_1_alg».proof.Proof.Gen.KernelIdeal.Skeleton
import proofs.«112135_j8126078124685_1_alg».proof.Proof.Gen.KernelIdeal.Launch
import proofs.«112135_j8126078124685_1_alg».proof.Proof.Gen.KernelIdeal.Points
import proofs.«112135_j8126078124685_1_alg».proof.Proof.Gen.KernelIdeal.Frame
import proofs.«112135_j8126078124685_1_alg».proof.Proof.Gen.ReferenceIdeal
import proofs.«112135_j8126078124685_1_alg».proof.Proof.Gen.Pre_finite_inputs
import proofs.«112135_j8126078124685_1_alg».proof.Proof.Gen.KernelIdeal.Value
import proofs.«112135_j8126078124685_1_alg».proof.Proof.KernelValue
import proofs.«112135_j8126078124685_1_alg».proof.Proof.RefStaged
import proofs.«112135_j8126078124685_1_alg».proof.Proof.RefIsG
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- From memories that agree on the five arguments, the idealized kernel's result array and the reference's result
    are the same function `G` of the arguments. -/
theorem algebraic : Cert.algebraic_KernelIdeal_ReferenceIdeal := by
  intro m ρ m' ρ' _ hagree
  refine ⟨_, Cert.KernelIdeal.RefValue.run m ρ, ?_⟩
  refine (θ_run Cert.ReferenceIdeal.defs _ _).mono (fun _ h c => ⟨(h c).1.trans ?_, (h c).2⟩)
    (Cert.ReferenceIdeal.Staged.run (F := Ideal) m' ρ')
  rw [Cert.ReferenceIdeal.RefValue.ref_eq_G, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
